-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x8x1024 : Shape := ⟨3, ![64, 8, 1024]⟩
abbrev S8x64x2 : Shape := ⟨3, ![8, 64, 2]⟩
abbrev S_ : Shape := ⟨0, ![]⟩

class Facts : Prop where
  bcast_S_S64x8x1024 : S_.BroadcastsInDim S64x8x1024 (![] : Fin 0 → Fin S64x8x1024.rank)
  reducesTo_S64x8x1024_S_d0_1_2 : S64x8x1024.ReducesTo [0, 1, 2] S_
  h_S_ : 0 < S_.numel
  bcast_S_S8x64x2 : S_.BroadcastsInDim S8x64x2 (![] : Fin 0 → Fin S8x64x2.rank)
  reducesTo_S8x64x2_S_d0_1_2 : S8x64x2.ReducesTo [0, 1, 2] S_

variable [Facts]

def fn {F : FTy → Type} [FloatOps F] (main_arg0 : FVec F S64x8x1024 .f32) (main_arg1 : FVec F S8x64x2 .f32) : IVec S_ 1 :=
  let main_v0 : FVec F S64x8x1024 .f32 := Host.absf main_arg0
  let main_cst : FVec F S_ .f32 := constant S_ .f32 0x7F800000#32
  let main_v1 : FVec F S64x8x1024 .f32 := broadcastInDim S64x8x1024 ![] bcast_S_S64x8x1024 main_cst
  let main_v2 : IVec S64x8x1024 1 := cmpf .olt main_v0 main_v1
  let main_c : IVec S_ 1 := constantI S_ 1 1#1
  let main_v3 : IVec S_ 1 := (fun x v => Host.reduce IntOp.andi x v reducesTo_S64x8x1024_S_d0_1_2 h_S_) main_v2 main_c
  let main_v4 : FVec F S8x64x2 .f32 := Host.absf main_arg1
  let main_cst_0 : FVec F S_ .f32 := constant S_ .f32 0x7F800000#32
  let main_v5 : FVec F S8x64x2 .f32 := broadcastInDim S8x64x2 ![] bcast_S_S8x64x2 main_cst_0
  let main_v6 : IVec S8x64x2 1 := cmpf .olt main_v4 main_v5
  let main_c_1 : IVec S_ 1 := constantI S_ 1 1#1
  let main_v7 : IVec S_ 1 := (fun x v => Host.reduce IntOp.andi x v reducesTo_S8x64x2_S_d0_1_2 h_S_) main_v6 main_c_1
  let main_v8 : IVec S_ 1 := andi main_v3 main_v7
  main_v8
-- ==== Kernel.lean ====
abbrev S64x8x1024 : Shape := ⟨3, ![64, 8, 1024]⟩
abbrev S8x64x2 : Shape := ⟨3, ![8, 64, 2]⟩
abbrev S64x8x1024x64 : Shape := ⟨4, ![64, 8, 1024, 64]⟩
abbrev S1x8x1024 : Shape := ⟨3, ![1, 8, 1024]⟩
abbrev S1x8x1024x64 : Shape := ⟨4, ![1, 8, 1024, 64]⟩
abbrev S8x1024 : Shape := ⟨2, ![8, 1024]⟩
abbrev S8x64x1 : Shape := ⟨3, ![8, 64, 1]⟩
abbrev S8x64 : Shape := ⟨2, ![8, 64]⟩
abbrev S8x1024x1 : Shape := ⟨3, ![8, 1024, 1]⟩
abbrev S8x1x64 : Shape := ⟨3, ![8, 1, 64]⟩
abbrev S8x1024x64 : Shape := ⟨3, ![8, 1024, 64]⟩

abbrev nBuf : Space → Nat
  | .hbm => 3
  | .vmem => 5
  | .smem => 0
  | _ => 0

abbrev bufTy : (tb : Table) → Fin (tcTables nBuf tb) → BufTy
  | .hbm, ⟨0, _⟩ => ⟨S64x8x1024, .f32⟩
  | .hbm, ⟨1, _⟩ => ⟨S8x64x2, .f32⟩
  | .hbm, ⟨2, _⟩ => ⟨S64x8x1024x64, .f32⟩
  | .local _ .vmem, ⟨0, _⟩ => ⟨S1x8x1024, .f32⟩
  | .local _ .vmem, ⟨1, _⟩ => ⟨S1x8x1024, .f32⟩
  | .local _ .vmem, ⟨2, _⟩ => ⟨S8x64x2, .f32⟩
  | .local _ .vmem, ⟨3, _⟩ => ⟨S1x8x1024x64, .f32⟩
  | .local _ .vmem, ⟨4, _⟩ => ⟨S1x8x1024x64, .f32⟩
  | _, _ => ⟨S64x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x64x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x8x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x8x1024_S1x8x1024_0_0_0 : ∀ a, (![0, 0, 0] : Fin 3 → Nat) a + S1x8x1024.size a ≤ S1x8x1024.size a
  h_S1x8x1024 : 0 < S1x8x1024.numel
  shapeCasts_S1x8x1024_S8x1024 : S1x8x1024.ShapeCasts S8x1024
  inb_S8x64x2_S8x64x2_0_0_0 : ∀ a, (![0, 0, 0] : Fin 3 → Nat) a + S8x64x2.size a ≤ S8x64x2.size a
  h_S8x64x2 : 0 < S8x64x2.numel
  slices_S8x64x2_o0_0_0_S8x64x1 : S8x64x2.Slices ![0, 0, 0] S8x64x1
  shapeCasts_S8x64x1_S8x64 : S8x64x1.ShapeCasts S8x64
  slices_S8x64x2_o0_0_1_S8x64x1 : S8x64x2.Slices ![0, 0, 1] S8x64x1
  shapeCasts_S8x1024_S8x1024x1 : S8x1024.ShapeCasts S8x1024x1
  shapeCasts_S8x64_S8x1x64 : S8x64.ShapeCasts S8x1x64
  broadcasts_S8x1024x1_S8x1024x64 : S8x1024x1.Broadcasts S8x1024x64
  broadcasts_S8x1x64_S8x1024x64 : S8x1x64.Broadcasts S8x1024x64
  inb_S1x8x1024x64_S1x8x1024x64_0_0_0_0 : ∀ a, (![0, 0, 0, 0] : Fin 4 → Nat) a + S1x8x1024x64.size a ≤ S1x8x1024x64.size a
  h_S1x8x1024x64 : 0 < S1x8x1024x64.numel
  shapeCasts_S1x8x1024x64_S8x1024x64 : S1x8x1024x64.ShapeCasts S8x1024x64
  shapeCasts_S8x1024x64_S1x8x1024x64 : S8x1024x64.ShapeCasts S1x8x1024x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x1024.size a ≤ S64x8x1024.size a
  hwx0_0 : ∀ i : grid0.Coords, EltTy.bits .f32 = 32 ∨ (Rect.block (s := S64x8x1024) S1x8x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x64x2.size a ≤ S8x64x2.size a
  hwx0_1 : ∀ i : grid0.Coords, EltTy.bits .f32 = 32 ∨ (Rect.block (s := S8x64x2) S8x64x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x1024x64.size a ≤ S64x8x1024x64.size a
  hwx0_2 : ∀ i : grid0.Coords, EltTy.bits .f32 = 32 ∨ (Rect.block (s := S64x8x1024x64) S1x8x1024x64.size (cc0_transform_2 i) (hinb0_2 i)).WholeWords (EltTy.packing .f32)

variable [Facts₀]

abbrev win0_0 : Pipeline.Window sig grid0 :=
  Pipeline.Window.ofSpec (Memref.whole main_arg0) S1x8x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x64x2.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x8x1024x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x8x1024 : Shape := ⟨3, ![64, 8, 1024]⟩
abbrev S8x64x2 : Shape := ⟨3, ![8, 64, 2]⟩
abbrev S8x64x1 : Shape := ⟨3, ![8, 64, 1]⟩
abbrev S8x64 : Shape := ⟨2, ![8, 64]⟩
abbrev S64x8x1024x1 : Shape := ⟨4, ![64, 8, 1024, 1]⟩
abbrev S1x8x1x64 : Shape := ⟨4, ![1, 8, 1, 64]⟩
abbrev S64x8x1024x64 : Shape := ⟨4, ![64, 8, 1024, 64]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S64x8x1024, .f32⟩
  | .hbm, ⟨1, _⟩ => ⟨S8x64x2, .f32⟩
  | .hbm, ⟨2, _⟩ => ⟨S8x64x1, .f32⟩
  | .hbm, ⟨3, _⟩ => ⟨S8x64, .f32⟩
  | .hbm, ⟨4, _⟩ => ⟨S8x64x1, .f32⟩
  | .hbm, ⟨5, _⟩ => ⟨S8x64, .f32⟩
  | .hbm, ⟨6, _⟩ => ⟨S64x8x1024x1, .f32⟩
  | .hbm, ⟨7, _⟩ => ⟨S1x8x1x64, .f32⟩
  | .hbm, ⟨8, _⟩ => ⟨S64x8x1024x64, .f32⟩
  | .hbm, ⟨9, _⟩ => ⟨S64x8x1024x64, .f32⟩
  | .hbm, ⟨10, _⟩ => ⟨S64x8x1024x64, .f32⟩
  | .hbm, ⟨11, _⟩ => ⟨S64x8x1024x64, .f32⟩
  | .hbm, ⟨12, _⟩ => ⟨S64x8x1024x64, .f32⟩
  | .hbm, ⟨13, _⟩ => ⟨S8x64, .f32⟩
  | .hbm, ⟨14, _⟩ => ⟨S1x8x1x64, .f32⟩
  | .hbm, ⟨15, _⟩ => ⟨S_, .f32⟩
  | .hbm, ⟨16, _⟩ => ⟨S1x8x1x64, .f32⟩
  | .hbm, ⟨17, _⟩ => ⟨S1x8x1x64, .f32⟩
  | .hbm, ⟨18, _⟩ => ⟨S64x8x1024x64, .f32⟩
  | .hbm, ⟨19, _⟩ => ⟨S64x8x1024x64, .f32⟩
  | .hbm, ⟨20, _⟩ => ⟨S64x8x1024x64, .f32⟩
  | .hbm, ⟨21, _⟩ => ⟨S_, .f32⟩
  | .hbm, ⟨22, _⟩ => ⟨S64x8x1024x64, .f32⟩
  | .hbm, ⟨23, _⟩ => ⟨S64x8x1024x64, .i1⟩
  | .hbm, ⟨24, _⟩ => ⟨S_, .f32⟩
  | .hbm, ⟨25, _⟩ => ⟨S64x8x1024x64, .f32⟩
  | .hbm, ⟨26, _⟩ => ⟨S64x8x1024x64, .f32⟩
  | _, _ => ⟨S64x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst_0 : Ref sig .tc := ⟨.hbm, 21, rfl⟩
abbrev main_v18 : Ref sig .tc := ⟨.hbm, 22, rfl⟩
abbrev main_v19 : Ref sig .tc := ⟨.hbm, 23, rfl⟩
abbrev main_cst_1 : Ref sig .tc := ⟨.hbm, 24, rfl⟩
abbrev main_call0_v0 : Ref sig .tc := ⟨.hbm, 25, rfl⟩
abbrev main_v20 : Ref sig .tc := ⟨.hbm, 26, rfl⟩

abbrev nD : Nat := 1
abbrev τ : Topo := Topo.v7x

variable {F : FTy → Type} [FloatOps F]

class Facts₀ : Prop where
  slices_S8x64x2_S8x64x1_0_0_0 : S8x64x2.Slices ![0, 0, 0] S8x64x1
  shapeCasts_S8x64x1_S8x64 : S8x64x1.ShapeCasts S8x64
  slices_S8x64x2_S8x64x1_0_0_1 : S8x64x2.Slices ![0, 0, 1] S8x64x1
  bcast_S64x8x1024_S64x8x1024x1_0_1_2 : S64x8x1024.BroadcastsInDim S64x8x1024x1 (![0, 1, 2] : Fin 3 → Fin S64x8x1024x1.rank)
  bcast_S8x64_S1x8x1x64_1_3 : S8x64.BroadcastsInDim S1x8x1x64 (![1, 3] : Fin 2 → Fin S1x8x1x64.rank)
  bcast_S64x8x1024x1_S64x8x1024x64_0_1_2_3 : S64x8x1024x1.BroadcastsInDim S64x8x1024x64 (![0, 1, 2, 3] : Fin 4 → Fin S64x8x1024x64.rank)
  bcast_S1x8x1x64_S64x8x1024x64_0_1_2_3 : S1x8x1x64.BroadcastsInDim S64x8x1024x64 (![0, 1, 2, 3] : Fin 4 → Fin S64x8x1024x64.rank)
  bcast_S_S1x8x1x64 : S_.BroadcastsInDim S1x8x1x64 (![] : Fin 0 → Fin S1x8x1x64.rank)
  bcast_S_S64x8x1024x64 : S_.BroadcastsInDim S64x8x1024x64 (![] : Fin 0 → Fin S64x8x1024x64.rank)

variable [Facts₀]

class Facts : Prop extends Facts₀ where

variable [Facts]
-- ==== Proof.Membership.lean ====
/-
  The function both programs compute. For a sample `x[b, v, s]` and a fuzzy set of variable `v` with centre
  `c = sets[v, p, 0]` and width `σ = sets[v, p, 1]`, the grade is the Gaussian membership
  `exp (-(x - c)² / (2 σ²))`, kept where it is at least the cut value and replaced by zero below it.
  The grade is written once, as a scalar function generic in the float instance, with the negation spelt
  `0 - y`; the array of grades reads it at the three indices a result index `(b, v, s, p)` names.
  At the ideal instance `0 - y = -y` holds on every extended real (the infinities included: `0 - ⊤ = ⊥`),
  so the same grade is also the one written with a negation, the host's quotient and the host's exponential.
  No finiteness is used anywhere: the two spellings differ by that one law only.
-/
import Idealize.ShloMosaic.PureOps.Ideal
import Idealize.ShloMosaic.PureOps.Ideal.Laws
import Idealize.ShloMosaic.Lib.ValueIdx

noncomputable section

namespace Fuzzy

open Idealize.ShloMosaic

/-- Samples `x[b, v, s]`. -/
abbrev SSamples : Shape := ⟨3, ![64, 8, 1024]⟩
/-- Fuzzy sets `sets[v, p, k]`: `k = 0` the centre, `k = 1` the width. -/
abbrev SSets : Shape := ⟨3, ![8, 64, 2]⟩
/-- Grades `g[b, v, s, p]`. -/
abbrev SGrades : Shape := ⟨4, ![64, 8, 1024, 64]⟩

variable {F : FTy → Type} [FloatOps F]

/-- The Gaussian membership `exp ((0 - (x - c)·(x - c)) / (2·(σ·σ)))`. -/
def gauss (x c σ : F .f32) : F .f32 :=
  FloatOps.exp (FloatOps.divf
    (FloatOps.subf (Scalar.ofBits .f32 0x00000000#32) (FloatOps.mulf (FloatOps.subf x c) (FloatOps.subf x c)))
    (FloatOps.mulf (Scalar.ofBits .f32 0x40000000#32) (FloatOps.mulf σ σ)))

/-- The alpha cut: a grade below the cut value becomes zero. -/
def alphaCut (g : F .f32) : F .f32 :=
  Scalar.select (FloatOps.cmpf .oge g (Scalar.ofBits .f32 0x3DCCCCCD#32)) g (Scalar.ofBits .f32 0x00000000#32)

/-- The sample a result index reads: `(b, v, s)`. -/
abbrev sampleOf (i : SGrades.Idx) : SSamples.Idx := fun a => match a with
  | ⟨0, _⟩ => ⟨(i 0).val, (i 0).isLt⟩
  | ⟨1, _⟩ => ⟨(i 1).val, (i 1).isLt⟩
  | ⟨2, _⟩ => ⟨(i 2).val, (i 2).isLt⟩

/-- The centre a result index reads: `(v, p, 0)`. -/
abbrev centreOf (i : SGrades.Idx) : SSets.Idx := fun a => match a with
  | ⟨0, _⟩ => ⟨(i 1).val, (i 1).isLt⟩
  | ⟨1, _⟩ => ⟨(i 3).val, (i 3).isLt⟩
  | ⟨2, _⟩ => ⟨0, by show 0 < 2; omega⟩

/-- The width a result index reads: `(v, p, 1)`. -/
abbrev widthOf (i : SGrades.Idx) : SSets.Idx := fun a => match a with
  | ⟨0, _⟩ => ⟨(i 1).val, (i 1).isLt⟩
  | ⟨1, _⟩ => ⟨(i 3).val, (i 3).isLt⟩
  | ⟨2, _⟩ => ⟨1, by show 1 < 2; omega⟩

/-- The array of cut grades, index by index, as one function of the two argument arrays. -/
def grades (x : SSamples.Idx → Elt F .f32) (sets : SSets.Idx → Elt F .f32) : SGrades.Idx → Elt F .f32 :=
  fun i => alphaCut (gauss (x (sampleOf i)) (sets (centreOf i)) (sets (widthOf i)))

/-- At the ideal instance the Gaussian is the one written with a negation, the host's quotient and the host's
    exponential: `0 - y = -y` on the extended reals, and the host's operations are the kernel's. -/
theorem gauss_host (x c σ : Ideal .f32) :
    gauss (F := Ideal) x c σ
      = FloatOps.hostUnary .exp (FloatOps.hostDivf
          (FloatOps.hostNegf (FloatOps.mulf (FloatOps.subf x c) (FloatOps.subf x c)))
          (FloatOps.mulf (FloatOps.ofBits .f32 0x40000000#32) (FloatOps.mulf σ σ))) := by
  have h0 : Scalar.ofBits (F := Ideal) .f32 0x00000000#32 = (0 : EReal) := Ideal.ofBits_zero_f32
  unfold gauss
  rw [h0]
  simp only [Ideal.subf_def, Ideal.hostNegf_def, Ideal.negf_def, Ideal.hostDivf_def, Ideal.divf_def,
    Ideal.hostUnary_exp_def, Ideal.exp_def, zero_sub]

end Fuzzy

end
-- ==== Proof.KernelGrades.lean ====
/-
  The kernel computes the array of cut grades. Grid point `b` stages the samples' block `x[b, :, :]`, the whole
  array of fuzzy sets, and the result's block `g[b, :, :, :]`; the body writes the result block whole. Read at
  a block index `(0, v, s, p)` the body's value is the cut grade of the sample block at `(0, v, s)` and of the
  sets at `(v, p, 0)` and `(v, p, 1)` (the generated value leg's index-by-index form of the body, whose four
  reads of the sample and of the centre and four of the width are the same three reads). A block's coordinate in
  its array is the block index times the block size plus the coordinate inside the block, and the index maps —
  decided once over the 64 points — move only the batch coordinate, the samples' with the result's; so what
  point `b` writes back is block `b` of the one array of cut grades. Every result index lies in the block of the
  point named by its batch coordinate, so after the run the result array is that array.
-/
import proofs.«155297_j68719476858_1_alg».proof.Proof.Gen.KernelIdeal.Value
import proofs.«155297_j68719476858_1_alg».proof.Proof.Membership

noncomputable section

namespace Cert.KernelIdeal.Grades

open Cert.KernelIdeal Cert.KernelIdeal.Gen Cert.KernelIdeal.Value Idealize.ShloMosaic Idealize.ShloMosaic.TcCoe Idealize.SL.Sem Fuzzy
open Idealize.ShloMosaic.Pipeline (Dat)

variable {F : FTy → Type} [FloatOps F]
variable (m : (ℓ : Loc nD τ sig) → Buf (Elt F) ℓ) (ρ : Dev nD → PrngReg)

theorem zero3 : (![0, 0, 0] : Fin 3 → Nat) = fun _ => 0 := funext fun a => by fin_cases a <;> rfl

/-- The body's result at a block index is the cut grade of three reads of the staged blocks. -/
theorem body_grade (x0 : Vec F S1x8x1024 .f32) (x1 : Vec F S8x64x2 .f32) (y : S1x8x1024x64.Idx) :
    out0_2 x0 x1 y = alphaCut (gauss (x0 (ix2_0 y)) (x1 (ix2_1 y)) (x1 (ix2_4 y))) := by
  unfold out0_2
  rw [canon2_eq, View.ld_unit_zero (S := S1x8x1024) zero3, View.ld_unit_zero (S := S8x64x2) zero3]
  rfl

/-- The index maps over the grid: the samples' block moves with the result's along the batch axis, which is the
    point's number; every other block index is zero. -/
theorem idx_facts : ∀ t : Fin cfg0.N,
    win0_0.index t (0 : Fin 3) = win0_2.index t (0 : Fin 4)
    ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (1 : Fin 4) = 0 ∧ win0_2.index t (2 : Fin 4) = 0 ∧ win0_2.index t (3 : Fin 4) = 0 :=
  (by decide +kernel : ∀ t : Fin grid0.N, _)

/-- Every batch coordinate is some point's block index. -/
theorem idx_onto : ∀ q : Fin 64, ∃ t : Fin cfg0.N, win0_2.index t = ![q.val, 0, 0, 0] :=
  (by decide +kernel : ∀ q : Fin 64, ∃ t : Fin grid0.N, win0_2.index t = ![q.val, 0, 0, 0])

/-- What point `t` writes back is block `t` of the array of cut grades of the argument arrays. -/
theorem flushed_eq (c : Dev nD) (t : Fin cfg0.N) :
    (dats m 0 c).flushed 2 t
      = ((cfg0.win 2).blk t).view.read (Elt F) (grades (V m c main_arg0) (V m c main_arg1)) := by
  rw [Value.flushed2]
  obtain ⟨e0, e1, e2, e3, e4, e5, e6, e7, e8⟩ := idx_facts t
  funext y
  have hy0 : (y 0).val < 1 := (y 0).isLt
  have hy1 : (y 1).val < 8 := (y 1).isLt
  have hy2 : (y 2).val < 1024 := (y 2).isLt
  have hy3 : (y 3).val < 64 := (y 3).isLt
  refine (body_grade (iblk m c 0 t) (iblk m c 1 t) y).trans ?_
  show alphaCut (gauss (V m c main_arg0 (((cfg0.win 0).blk t).view.emb (ix2_0 y)))
        (V m c main_arg1 (((cfg0.win 1).blk t).view.emb (ix2_1 y)))
        (V m c main_arg1 (((cfg0.win 1).blk t).view.emb (ix2_4 y))))
    = alphaCut (gauss (V m c main_arg0 (sampleOf (((cfg0.win 2).blk t).view.emb y)))
        (V m c main_arg1 (centreOf (((cfg0.win 2).blk t).view.emb y)))
        (V m c main_arg1 (widthOf (((cfg0.win 2).blk t).view.emb y))))
  have hs : ((cfg0.win 0).blk t).view.emb (ix2_0 y) = sampleOf (((cfg0.win 2).blk t).view.emb y) := by
    funext a; apply Fin.ext
    match a with
    | ⟨0, _⟩ => show win0_0.index t (0 : Fin 3) * 1 + 1 * 0 = win0_2.index t (0 : Fin 4) * 1 + 1 * (y 0).val; omega
    | ⟨1, _⟩ => show win0_0.index t (1 : Fin 3) * 8 + 1 * (y 1).val = win0_2.index t (1 : Fin 4) * 8 + 1 * (y 1).val; omega
    | ⟨2, _⟩ => show win0_0.index t (2 : Fin 3) * 1024 + 1 * (y 2).val = win0_2.index t (2 : Fin 4) * 1024 + 1 * (y 2).val; omega
  have hc : ((cfg0.win 1).blk t).view.emb (ix2_1 y) = centreOf (((cfg0.win 2).blk t).view.emb y) := by
    funext a; apply Fin.ext
    match a with
    | ⟨0, _⟩ => show win0_1.index t (0 : Fin 3) * 8 + 1 * (y 1).val = win0_2.index t (1 : Fin 4) * 8 + 1 * (y 1).val; omega
    | ⟨1, _⟩ => show win0_1.index t (1 : Fin 3) * 64 + 1 * (y 3).val = win0_2.index t (3 : Fin 4) * 64 + 1 * (y 3).val; omega
    | ⟨2, _⟩ => show win0_1.index t (2 : Fin 3) * 2 + 1 * 0 = 0; omega
  have hw : ((cfg0.win 1).blk t).view.emb (ix2_4 y) = widthOf (((cfg0.win 2).blk t).view.emb y) := by
    funext a; apply Fin.ext
    match a with
    | ⟨0, _⟩ => show win0_1.index t (0 : Fin 3) * 8 + 1 * (y 1).val = win0_2.index t (1 : Fin 4) * 8 + 1 * (y 1).val; omega
    | ⟨1, _⟩ => show win0_1.index t (1 : Fin 3) * 64 + 1 * (y 3).val = win0_2.index t (3 : Fin 4) * 64 + 1 * (y 3).val; omega
    | ⟨2, _⟩ => show win0_1.index t (2 : Fin 3) * 2 + 1 * 1 = 1; omega
  rw [hs, hc, hw]

/-- An index of the result array is in point `t`'s block iff each coordinate is in the block's range on its axis. -/
theorem mem_block (t : Fin cfg0.N) (i : S64x8x1024x64.Idx) :
    i ∈ ((cfg0.win 2).blk t).view.set ↔ ∀ a : Fin 4, win0_2.index t a * S1x8x1024x64.size a ≤ (i a).val
      ∧ (i a).val < win0_2.index t a * S1x8x1024x64.size a + S1x8x1024x64.size a := by
  show i ∈ ((View.whole main_v0).slice (win0_2.rect t)).set ↔ _
  rw [View.set_slice_whole, Rect.mem_set_unit]
  exact Iff.rfl

/-- Every result index is in the block of the point its batch coordinate names. -/
theorem cover (i : S64x8x1024x64.Idx) :
    ∃ t : Fin cfg0.N, (cfg0.win 2).flush t = true ∧ i ∈ ((cfg0.win 2).blk t).view.set := by
  have hi0 : (i 0).val < 64 := (i 0).isLt
  have hi1 : (i 1).val < 8 := (i 1).isLt
  have hi2 : (i 2).val < 1024 := (i 2).isLt
  have hi3 : (i 3).val < 64 := (i 3).isLt
  obtain ⟨t, ht⟩ := idx_onto ⟨(i 0).val, hi0⟩
  have q0 : win0_2.index t (0 : Fin 4) = (i 0).val := congrFun ht 0
  have q1 : win0_2.index t (1 : Fin 4) = 0 := congrFun ht 1
  have q2 : win0_2.index t (2 : Fin 4) = 0 := congrFun ht 2
  have q3 : win0_2.index t (3 : Fin 4) = 0 := congrFun ht 3
  refine ⟨t, flush0_2 t, ?_⟩
  rw [mem_block]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 8 ≤ (i 1).val ∧ (i 1).val < win0_2.index t (1 : Fin 4) * 8 + 8; omega
  | ⟨2, _⟩ => show win0_2.index t (2 : Fin 4) * 1024 ≤ (i 2).val ∧ (i 2).val < win0_2.index t (2 : Fin 4) * 1024 + 1024; omega
  | ⟨3, _⟩ => show win0_2.index t (3 : Fin 4) * 64 ≤ (i 3).val ∧ (i 3).val < win0_2.index t (3 : Fin 4) * 64 + 64; omega

/-- After the run the result array is the array of cut grades of the argument arrays. -/
theorem final (c : Dev nD) :
    (dats m 0 c).arrAt 2 cfg0.N
      = grades (m ((c : Thread nD τ).loc main_arg0)) (m ((c : Thread nD τ).loc main_arg1)) :=
  (dats m 0 c).arrAt_eq_of_cover 2 (grades (V m c main_arg0) (V m c main_arg1)) (fun t _ => flushed_eq m c t) cover

/-- The kernel's run: the result array ends at the array of cut grades, the arguments unchanged. -/
theorem run : θ_run defs (onTc (τ := τ) (main (F := F))) ⟨m, fun _ => 0, ρ⟩ fun r => ∀ c : Dev nD,
      r.2.mem ((c : Thread nD τ).loc main_v0)
        = grades (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Grades

end
-- ==== Proof.ReferenceGrades.lean ====
/-
  The reference computes the array of cut grades. Its result is read one operation at a time down to the two
  argument arrays: the sample through the two broadcasts that add and then stretch the partition axis, the centre
  and the width through the slice of the last axis, the reshape that drops it and the two broadcasts that add and
  stretch the batch and sample axes. The three composed index maps are the ones a result index `(b, v, s, p)`
  names — `(b, v, s)`, `(v, p, 0)`, `(v, p, 1)` — the reshape's division and remainder by 64 undoing
  `v · 64 + p`. What is left is the Gaussian written with a negation and the host's operations, which is the
  grade (`Fuzzy.gauss_host`).
-/
import proofs.«155297_j68719476858_1_alg».proof.Proof.Gen.ReferenceIdeal.Read
import proofs.«155297_j68719476858_1_alg».proof.Proof.Membership

noncomputable section

namespace Cert.ReferenceIdeal.Grades

open Cert.ReferenceIdeal Cert.ReferenceIdeal.Gen Cert.ReferenceIdeal.Read Idealize.ShloMosaic Fuzzy

/-- The sample read at a result index: the two broadcasts keep `(b, v, s)`. -/
theorem sample_idx (i : S64x8x1024x64.Idx) : idx_main_v4 (idx_main_v6 i) = sampleOf i :=
  funext fun a => match a with
    | ⟨0, _⟩ => rfl
    | ⟨1, _⟩ => rfl
    | ⟨2, _⟩ => rfl

/-- The centre read at a result index: `(v, p, 0)`. -/
theorem centre_idx (i : S64x8x1024x64.Idx) : idx_main_v0 (idx_main_v1 (idx_main_v5 (idx_main_v7 i))) = centreOf i := by
  have h1 : (i 1).val < 8 := (i 1).isLt
  have h3 : (i 3).val < 64 := (i 3).isLt
  funext a; apply Fin.ext
  match a with
  | ⟨0, _⟩ => show ((i 1).val * 64 + (i 3).val) / 64 = (i 1).val; omega
  | ⟨1, _⟩ => show ((i 1).val * 64 + (i 3).val) / 1 % 64 = (i 3).val; omega
  | ⟨2, _⟩ => rfl

/-- The width read at a result index: `(v, p, 1)`. -/
theorem width_idx (i : S64x8x1024x64.Idx) : idx_main_v2 (idx_main_v3 (idx_main_v12 (idx_main_v15 i))) = widthOf i := by
  have h1 : (i 1).val < 8 := (i 1).isLt
  have h3 : (i 3).val < 64 := (i 3).isLt
  funext a; apply Fin.ext
  match a with
  | ⟨0, _⟩ => show ((i 1).val * 64 + (i 3).val) / 64 = (i 1).val; omega
  | ⟨1, _⟩ => show ((i 1).val * 64 + (i 3).val) / 1 % 64 = (i 3).val; omega
  | ⟨2, _⟩ => rfl

/-- The reference's result, at the ideal instance, is the array of cut grades of its two arguments. -/
theorem reference_grades (x0 : (⟨S64x8x1024, .f32⟩ : BufTy).Contents (Elt Ideal)) (x1 : (⟨S8x64x2, .f32⟩ : BufTy).Contents (Elt Ideal)) :
    val_main_v20 (F := Ideal) x0 x1 = grades (F := Ideal) x0 x1 := by
  funext i
  rw [val_main_v20_apply, val_main_v19_apply, val_main_v18_apply, val_main_cst_0_apply, val_main_call0_v0_apply,
    val_main_cst_1_apply, val_main_v17_apply, val_main_v16_apply, val_main_v10_apply, val_main_v9_apply,
    val_main_v8_apply, val_main_v6_apply, val_main_v4_apply, val_main_v7_apply, val_main_v5_apply, val_main_v1_apply,
    val_main_v0_apply, val_main_v15_apply, val_main_v14_apply, val_main_v13_apply, val_main_cst_apply,
    val_main_v12_apply, val_main_v11_apply, val_main_v3_apply, val_main_v2_apply, sample_idx, centre_idx, width_idx]
  unfold grades alphaCut
  rw [gauss_host]

end Cert.ReferenceIdeal.Grades

end
-- ==== Proof.lean ====
/-
  The kernel and its reference compute the same array. For samples `x[b, v, s]` and fuzzy sets with centre
  `c = sets[v, p, 0]` and width `σ = sets[v, p, 1]`, both end with
  `g[b, v, s, p] = exp (-(x - c)² / (2 σ²))` where that is at least the cut value, and zero elsewhere.
  The kernel works one batch entry per grid point, the reference on the whole arrays through broadcasts; the
  kernel writes the negation as `0 - y`, the reference as `-y`, equal on every extended real, and the host's
  quotient and exponential are the kernel's at the ideal instance. Both results are therefore the one function
  `Fuzzy.grades` of the argument arrays (Proof/Membership.lean): the kernel's by reading each point's block
  and covering the array with the blocks (Proof/KernelGrades.lean), the reference's by reading its operations one
  at a time (Proof/ReferenceGrades.lean). The input's finiteness is not used.
  The three frames are the generated ones (the reference's is its run with the result dropped), and the
  idealization rewrote nothing, so there is nothing to preserve.
-/
import proofs.«155297_j68719476858_1_alg».proof.Defs
import proofs.«155297_j68719476858_1_alg».proof.Proof.Gen.Kernel
import proofs.«155297_j68719476858_1_alg».proof.Proof.Gen.Kernel.Skeleton
import proofs.«155297_j68719476858_1_alg».proof.Proof.Gen.Kernel.Launch
import proofs.«155297_j68719476858_1_alg».proof.Proof.Gen.Kernel.Points
import proofs.«155297_j68719476858_1_alg».proof.Proof.Gen.Kernel.Frame
import proofs.«155297_j68719476858_1_alg».proof.Proof.Gen.KernelIdeal
import proofs.«155297_j68719476858_1_alg».proof.Proof.Gen.KernelIdeal.Skeleton
import proofs.«155297_j68719476858_1_alg».proof.Proof.Gen.KernelIdeal.Launch
import proofs.«155297_j68719476858_1_alg».proof.Proof.Gen.KernelIdeal.Points
import proofs.«155297_j68719476858_1_alg».proof.Proof.Gen.KernelIdeal.Frame
import proofs.«155297_j68719476858_1_alg».proof.Proof.Gen.ReferenceIdeal
import proofs.«155297_j68719476858_1_alg».proof.Proof.Gen.Pre_finite_inputs
import proofs.«155297_j68719476858_1_alg».proof.Proof.Gen.KernelIdeal.Value
import proofs.«155297_j68719476858_1_alg».proof.Proof.Gen.ReferenceIdeal.Run
import proofs.«155297_j68719476858_1_alg».proof.Proof.Gen.ReferenceIdeal.Read
import proofs.«155297_j68719476858_1_alg».proof.Proof.Membership
import proofs.«155297_j68719476858_1_alg».proof.Proof.KernelGrades
import proofs.«155297_j68719476858_1_alg».proof.Proof.ReferenceGrades
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the two arguments, the kernel's result array and the reference's both end at the
    array of cut grades of those arguments. -/
theorem algebraic : Cert.algebraic_KernelIdeal_ReferenceIdeal := by
  intro m ρ m' ρ' _ hagree
  refine ⟨fun c => Fuzzy.grades (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Grades.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.Grades.reference_grades, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
